-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S256x256 : Shape := ⟨2, ![256, 256]⟩
abbrev S100x256 : Shape := ⟨2, ![100, 256]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S100x256 : S_.BroadcastsInDim S100x256 (![] : Fin 0 → Fin S100x256.rank)
  reducesTo_S100x256_S_d0_1 : S100x256.ReducesTo [0, 1] S_

variable [Facts]

def fn_part1 {F : FTy → Type} [FloatOps F] (main_arg4 : FVec F S100x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S100x256 .f32 := Host.absf main_arg4
  let main_cst_6 : FVec F S_ .f32 := constant S_ .f32 0x7F800000#32
  let main_v20 : FVec F S100x256 .f32 := broadcastInDim S100x256 ![] bcast_S_S100x256 main_cst_6
  let main_v21 : IVec S100x256 1 := cmpf .olt main_v19 main_v20
  let main_c_7 : IVec S_ 1 := constantI S_ 1 1#1
  let main_v22 : IVec S_ 1 := (fun x v => Host.reduce IntOp.andi x v reducesTo_S100x256_S_d0_1 h_S_) main_v21 main_c_7
  let main_v23 : IVec S_ 1 := andi main_v18 main_v22
  main_v23

def fn {F : FTy → Type} [FloatOps F] (main_arg0 : FVec F S4096x64x128 .f32) (main_arg1 : FVec F S4096x64x128 .f32) (main_arg2 : FVec F S256x256 .f32) (main_arg3 : FVec F S256x256 .f32) (main_arg4 : FVec F S100x256 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096x64x128 .f32 := Host.absf main_arg1
  let main_cst_0 : FVec F S_ .f32 := constant S_ .f32 0x7F800000#32
  let main_v5 : FVec F S4096x64x128 .f32 := broadcastInDim S4096x64x128 ![] bcast_S_S4096x64x128 main_cst_0
  let main_v6 : IVec S4096x64x128 1 := cmpf .olt main_v4 main_v5
  let main_c_1 : IVec S_ 1 := constantI S_ 1 1#1
  let main_v7 : IVec S_ 1 := (fun x v => Host.reduce IntOp.andi x v reducesTo_S4096x64x128_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x64x128 : Shape := ⟨3, ![4096, 64, 128]⟩
abbrev S256x256 : Shape := ⟨2, ![256, 256]⟩
abbrev S100x256 : Shape := ⟨2, ![100, 256]⟩
abbrev S64x256 : Shape := ⟨2, ![64, 256]⟩
abbrev S4096x64x256 : Shape := ⟨3, ![4096, 64, 256]⟩
abbrev S32x64x128 : Shape := ⟨3, ![32, 64, 128]⟩
abbrev S32x64x256 : Shape := ⟨3, ![32, 64, 256]⟩
abbrev S1x64x256 : Shape := ⟨3, ![1, 64, 256]⟩
abbrev S2048x256 : Shape := ⟨2, ![2048, 256]⟩
abbrev S32x64x64 : Shape := ⟨3, ![32, 64, 64]⟩
abbrev S32x64 : Shape := ⟨2, ![32, 64]⟩
abbrev S32x64x1 : Shape := ⟨3, ![32, 64, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S256x256, .f32⟩
  | .hbm, ⟨3, _⟩ => ⟨S256x256, .f32⟩
  | .hbm, ⟨4, _⟩ => ⟨S100x256, .f32⟩
  | .hbm, ⟨5, _⟩ => ⟨S64x256, .f32⟩
  | .hbm, ⟨6, _⟩ => ⟨S4096x64x256, .f32⟩
  | .hbm, ⟨7, _⟩ => ⟨S4096x64x256, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S256x256, .f32⟩
  | .local _ .vmem, ⟨5, _⟩ => ⟨S256x256, .f32⟩
  | .local _ .vmem, ⟨6, _⟩ => ⟨S64x256, .f32⟩
  | .local _ .vmem, ⟨7, _⟩ => ⟨S32x64x256, .f32⟩
  | .local _ .vmem, ⟨8, _⟩ => ⟨S32x64x256, .f32⟩
  | .local _ .vmem, ⟨9, _⟩ => ⟨S32x64x256, .f32⟩
  | .local _ .vmem, ⟨10, _⟩ => ⟨S32x64x256, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100x256_S64x256_0_0 : S100x256.Slices ![0, 0] S64x256
  inb_S32x64x128_S32x64x128_0_0_0 : ∀ a, (![0, 0, 0] : Fin 3 → Nat) a + S32x64x128.size a ≤ S32x64x128.size a
  h_S32x64x128 : 0 < S32x64x128.numel
  concatenates_S32x64x128_S32x64x128_S32x64x256_d2 : Shape.Concatenates [S32x64x128, S32x64x128] S32x64x256 2
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S1x64x256 : S64x256.ShapeCasts S1x64x256
  broadcasts_S1x64x256_S32x64x256 : S1x64x256.Broadcasts S32x64x256
  bitsLt_bf16_f32 : FTy.bits .bf16 < FTy.bits .f32
  shapeCasts_S32x64x256_S2048x256 : S32x64x256.ShapeCasts S2048x256
  inb_S256x256_S256x256_0_0 : ∀ a, (![0, 0] : Fin 2 → Nat) a + S256x256.size a ≤ S256x256.size a
  h_S256x256 : 0 < S256x256.numel
  shapeCasts_S2048x256_S32x64x256 : S2048x256.ShapeCasts S32x64x256
  reduces_S32x64x64_S32x64 : S32x64x64.Reduces [2] S32x64
  shapeCasts_S32x64_S32x64x1 : S32x64.ShapeCasts S32x64x1
  broadcasts_S32x64x1_S32x64x64 : S32x64x1.Broadcasts S32x64x64
  inb_S32x64x256_S32x64x256_0_0_0 : ∀ a, (![0, 0, 0] : Fin 3 → Nat) a + S32x64x256.size a ≤ S32x64x256.size a
  h_S32x64x256 : 0 < S32x64x256.numel
  dot_S2048x256_S256x256_S2048x256_1_0_0_1_n_n_wf : DotDims.WF S2048x256 S256x256 S2048x256 [1] [0] [0] [1] [] []
  dot_S32x64x256_S32x64x256_S32x64x64_2_2_1_1_0_0_wf : DotDims.WF S32x64x256 S32x64x256 S32x64x64 [2] [2] [1] [1] [0] [0]
  dot_S32x64x64_S32x64x256_S32x64x256_2_1_1_2_0_0_wf : DotDims.WF S32x64x64 S32x64x256 S32x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x128.size a ≤ S4096x64x128.size a
  hwx0_0 : ∀ i : grid0.Coords, EltTy.bits .f32 = 32 ∨ (Rect.block (s := S4096x64x128) S32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x128.size a ≤ S4096x64x128.size a
  hwx0_1 : ∀ i : grid0.Coords, EltTy.bits .f32 = 32 ∨ (Rect.block (s := S4096x64x128) S32x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x64x256.size a ≤ S4096x64x256.size a
  hwx0_5 : ∀ i : grid0.Coords, EltTy.bits .f32 = 32 ∨ (Rect.block (s := S4096x64x256) S32x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x64x256.size a ≤ S4096x64x256.size a
  hwx0_6 : ∀ i : grid0.Coords, EltTy.bits .f32 = 32 ∨ (Rect.block (s := S4096x64x256) S32x64x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x64x256_S32x64x256_S32x64x64_2_2_1_1_0_0 : DotDims S32x64x256 S32x64x256 S32x64x64 where
  lhsContracting := [2]
  rhsContracting := [2]
  lhsNonContracting := [1]
  rhsNonContracting := [1]
  lhsBatch := [0]
  rhsBatch := [0]
  wf := dot_S32x64x256_S32x64x256_S32x64x64_2_2_1_1_0_0_wf
def dot_S32x64x64_S32x64x256_S32x64x256_2_1_1_2_0_0 : DotDims S32x64x64 S32x64x256 S32x64x256 where
  lhsContracting := [2]
  rhsContracting := [1]
  lhsNonContracting := [1]
  rhsNonContracting := [2]
  lhsBatch := [0]
  rhsBatch := [0]
  wf := dot_S32x64x64_S32x64x256_S32x64x256_2_1_1_2_0_0_wf

abbrev win0_0 : Pipeline.Window sig grid0 :=
  Pipeline.Window.ofSpec (Memref.whole main_arg0) S32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S32x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S32x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S256x256 : Shape := ⟨2, ![256, 256]⟩
abbrev S100x256 : Shape := ⟨2, ![100, 256]⟩
abbrev S4096x64x256 : Shape := ⟨3, ![4096, 64, 256]⟩
abbrev S64x256 : Shape := ⟨2, ![64, 256]⟩
abbrev S1x64x256 : Shape := ⟨3, ![1, 64, 256]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S256x256, .f32⟩
  | .hbm, ⟨3, _⟩ => ⟨S256x256, .f32⟩
  | .hbm, ⟨4, _⟩ => ⟨S100x256, .f32⟩
  | .hbm, ⟨5, _⟩ => ⟨S4096x64x256, .f32⟩
  | .hbm, ⟨6, _⟩ => ⟨S64x256, .f32⟩
  | .hbm, ⟨7, _⟩ => ⟨S1x64x256, .f32⟩
  | .hbm, ⟨8, _⟩ => ⟨S4096x64x256, .f32⟩
  | .hbm, ⟨9, _⟩ => ⟨S4096x64x256, .f32⟩
  | .hbm, ⟨10, _⟩ => ⟨S4096x64x256, .f32⟩
  | .hbm, ⟨11, _⟩ => ⟨S4096x64x256, .f32⟩
  | .hbm, ⟨12, _⟩ => ⟨S4096x64x64, .f32⟩
  | .hbm, ⟨13, _⟩ => ⟨S_, .f32⟩
  | .hbm, ⟨14, _⟩ => ⟨S_, .f32⟩
  | .hbm, ⟨15, _⟩ => ⟨S4096x64x64, .f32⟩
  | .hbm, ⟨16, _⟩ => ⟨S4096x64x64, .f32⟩
  | .hbm, ⟨17, _⟩ => ⟨S_, .f32⟩
  | .hbm, ⟨18, _⟩ => ⟨S4096x64x64, .f32⟩
  | .hbm, ⟨19, _⟩ => ⟨S4096x64x64, .f32⟩
  | .hbm, ⟨20, _⟩ => ⟨S_, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64x1, .f32⟩
  | .hbm, ⟨26, _⟩ => ⟨S4096x64x64, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64, .f32⟩
  | .hbm, ⟨31, _⟩ => ⟨S4096x64x1, .f32⟩
  | .hbm, ⟨32, _⟩ => ⟨S4096x64x64, .f32⟩
  | .hbm, ⟨33, _⟩ => ⟨S4096x64x64, .f32⟩
  | .hbm, ⟨34, _⟩ => ⟨S4096x64x64, .f32⟩
  | .hbm, ⟨35, _⟩ => ⟨S_, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64x1, .f32⟩
  | .hbm, ⟨41, _⟩ => ⟨S4096x64x64, .f32⟩
  | .hbm, ⟨42, _⟩ => ⟨S4096x64x64, .f32⟩
  | .hbm, ⟨43, _⟩ => ⟨S4096x64x64, .f32⟩
  | .hbm, ⟨44, _⟩ => ⟨S_, .f32⟩
  | .hbm, ⟨45, _⟩ => ⟨S4096x64, .f32⟩
  | .hbm, ⟨46, _⟩ => ⟨S4096x64x1, .f32⟩
  | .hbm, ⟨47, _⟩ => ⟨S4096x64x64, .f32⟩
  | .hbm, ⟨48, _⟩ => ⟨S4096x64x64, .f32⟩
  | .hbm, ⟨49, _⟩ => ⟨S4096x64x256, .f32⟩
  | .hbm, ⟨50, _⟩ => ⟨S4096x64x256, .f32⟩
  | .hbm, ⟨51, _⟩ => ⟨S4096x64x256, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  concatenates_S4096x64x128_S4096x64x128_S4096x64x256_d2 : Shape.Concatenates [S4096x64x128, S4096x64x128] S4096x64x256 2
  slices_S100x256_S64x256_0_0 : S100x256.Slices ![0, 0] S64x256
  bcast_S64x256_S1x64x256_1_2 : S64x256.BroadcastsInDim S1x64x256 (![1, 2] : Fin 2 → Fin S1x64x256.rank)
  bcast_S1x64x256_S4096x64x256_0_1_2 : S1x64x256.BroadcastsInDim S4096x64x256 (![0, 1, 2] : Fin 3 → Fin S4096x64x256.rank)
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  dot_S4096x64x256_S256x256_S4096x64x256_2_0_01_1_n_n_wf : DotDims.WF S4096x64x256 S256x256 S4096x64x256 [2] [0] [0, 1] [1] [] []
  dot_S4096x64x256_S4096x64x256_S4096x64x64_2_2_1_1_0_0_wf : DotDims.WF S4096x64x256 S4096x64x256 S4096x64x64 [2] [2] [1] [1] [0] [0]
  dot_S4096x64x64_S4096x64x256_S4096x64x256_2_1_1_2_0_0_wf : DotDims.WF S4096x64x64 S4096x64x256 S4096x64x256 [2] [1] [1] [2] [0] [0]

variable [Facts₀]

def dot_S4096x64x256_S256x256_S4096x64x256_2_0_01_1_n_n : DotDims S4096x64x256 S256x256 S4096x64x256 where
  lhsContracting := [2]
  rhsContracting := [0]
  lhsNonContracting := [0, 1]
  rhsNonContracting := [1]
  lhsBatch := []
  rhsBatch := []
  wf := dot_S4096x64x256_S256x256_S4096x64x256_2_0_01_1_n_n_wf
def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def dot_S4096x64x64_S4096x64x256_S4096x64x256_2_1_1_2_0_0 : DotDims S4096x64x64 S4096x64x256 S4096x64x256 where
  lhsContracting := [2]
  rhsContracting := [1]
  lhsNonContracting := [1]
  rhsNonContracting := [2]
  lhsBatch := [0]
  rhsBatch := [0]
  wf := dot_S4096x64x64_S4096x64x256_S4096x64x256_2_1_1_2_0_0_wf

class Facts : Prop extends Facts₀ where

variable [Facts]
-- ==== Proof.Attention.lean ====
/-
  The mathematics both programs compute, for ONE batch item, on the extended reals.

  Let x be the item's [64, 256] array: row t is the 128 real entries followed by the 128 imaginary ones, plus row t
  of the positional table. With q = x · Qw and k = x · Kw the scores are z t s = (Σ_d q t d · k s d) · 1/8. A row's
  softmax is taken with the row's maximum subtracted (the maximum started from -∞, and met with -∞ once more),
  e^(z s − max) over the row's sum of those. The first result is softmax(z t ·) · x + x, the second
  softmax(−z t ·) · x.

  The arrays hold 4096 items; the kernel works on 32 of them at a time. `itemOf` names item n of the whole arrays,
  `itemOfBlock` item b of a block of 32 (the positional rows already cut to the first 64).

  The one law that joins the two programs' spellings of the scale: dividing by √64 and then by 1 is multiplying by
  1/8, on every extended real (`scale_law`).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- −∞, as the pattern both programs start a row's maximum from. -/
abbrev negInf : EReal := Ideal.ofBits .f32 0xFF800000#32

/-- The kernel's scale: the pattern of 1/8. -/
abbrev eighth : EReal := Ideal.ofBits .f32 0x3E000000#32

/-- Two rows of 128 side by side: the first below column 128, the second from there on. -/
def cat (a b : Fin 128 → EReal) (h : Fin 256) : EReal :=
  if hh : h.val < 128 then a ⟨h.val, hh⟩ else b ⟨h.val - 128, by have := h.isLt; omega⟩

/-- x · w for a [64, 256] item and a [256, 256] weight. -/
def proj (x : Fin 64 → Fin 256 → EReal) (w : Fin 256 → Fin 256 → EReal) (t : Fin 64) (d : Fin 256) : EReal :=
  ∑ h : Fin 256, x t h * w h d

/-- The scaled scores: (x·Qw)(x·Kw)ᵀ / 8. -/
def score (x : Fin 64 → Fin 256 → EReal) (qw kw : Fin 256 → Fin 256 → EReal) (t s : Fin 64) : EReal :=
  (∑ d : Fin 256, proj x qw t d * proj x kw s d) * eighth

/-- A row's maximum, from −∞, met with −∞ once more (both programs do). -/
def rowMax (z : Fin 64 → EReal) : EReal := max negInf (Finset.univ.fold max negInf z)

/-- The softmax of a row, the row's maximum subtracted first. -/
def soft (z : Fin 64 → EReal) (s : Fin 64) : EReal :=
  Ideal.div (Ideal.exp (z s - rowMax z)) (∑ s' : Fin 64, Ideal.exp (z s' - rowMax z))

/-- The first result for one item: softmax(z) · x + x. -/
def cau (x : Fin 64 → Fin 256 → EReal) (qw kw : Fin 256 → Fin 256 → EReal) (t : Fin 64) (d : Fin 256) : EReal :=
  (∑ s : Fin 64, soft (score x qw kw t) s * x s d) + x t d

/-- The second result for one item: softmax(−z) · x. -/
def spu (x : Fin 64 → Fin 256 → EReal) (qw kw : Fin 256 → Fin 256 → EReal) (t : Fin 64) (d : Fin 256) : EReal :=
  ∑ s : Fin 64, soft (fun s' => -score x qw kw t s') s * x s d

/-- A [256, 256] array by its two coordinates. -/
def mat (w : (⟨2, ![256, 256]⟩ : Shape).Idx → EReal) : Fin 256 → Fin 256 → EReal := fun h d => w (ix2 h d)

/-- Item n of the whole arrays: real and imaginary parts side by side, plus the positional table's first 64 rows. -/
def itemOf (a0 a1 : (⟨3, ![4096, 64, 128]⟩ : Shape).Idx → EReal) (pe : (⟨2, ![100, 256]⟩ : Shape).Idx → EReal)
    (n : Fin 4096) : Fin 64 → Fin 256 → EReal :=
  fun t h => cat (fun f => a0 (ix3 n t f)) (fun f => a1 (ix3 n t f)) h
    + pe (ix2 (⟨t.val, by have := t.isLt; omega⟩ : Fin 100) h)

/-- Item b of a block of 32 items, the positional rows given as their own [64, 256] array. -/
def itemOfBlock (x0 x1 : (⟨3, ![32, 64, 128]⟩ : Shape).Idx → EReal) (x4 : (⟨2, ![64, 256]⟩ : Shape).Idx → EReal)
    (b : Fin 32) : Fin 64 → Fin 256 → EReal :=
  fun t h => cat (fun f => x0 (ix3 b t f)) (fun f => x1 (ix3 b t f)) h + x4 (ix2 t h)

/-- The first result array, index by index, as one function of the five argument arrays. -/
def cauAll (a0 a1 : (⟨3, ![4096, 64, 128]⟩ : Shape).Idx → EReal) (qw kw : (⟨2, ![256, 256]⟩ : Shape).Idx → EReal)
    (pe : (⟨2, ![100, 256]⟩ : Shape).Idx → EReal) : (⟨3, ![4096, 64, 256]⟩ : Shape).Idx → EReal :=
  fun i => cau (itemOf a0 a1 pe (i 0)) (mat qw) (mat kw) (i 1) (i 2)

/-- The second result array likewise. -/
def spuAll (a0 a1 : (⟨3, ![4096, 64, 128]⟩ : Shape).Idx → EReal) (qw kw : (⟨2, ![256, 256]⟩ : Shape).Idx → EReal)
    (pe : (⟨2, ![100, 256]⟩ : Shape).Idx → EReal) : (⟨3, ![4096, 64, 256]⟩ : Shape).Idx → EReal :=
  fun i => spu (itemOf a0 a1 pe (i 0)) (mat qw) (mat kw) (i 1) (i 2)

/-! ## The scale -/

/-- The pattern of 64.0 is the real 64. -/
theorem ofBits_64 : Ideal.ofBits .f32 0x42800000#32 = ((64 : ℝ) : EReal) := by
  simp [Ideal.ofBits, Ideal.ieee, -EReal.coe_mul]; norm_num

/-- The pattern of 1.0 is the real 1. -/
theorem ofBits_one : Ideal.ofBits .f32 0x3F800000#32 = ((1 : ℝ) : EReal) := by
  simp [Ideal.ofBits, Ideal.ieee, -EReal.coe_mul]; norm_num

/-- The pattern of 0.125 is the real 1/8. -/
theorem ofBits_eighth : Ideal.ofBits .f32 0x3E000000#32 = ((1 / 8 : ℝ) : EReal) := by
  simp [Ideal.ofBits, Ideal.ieee, -EReal.coe_mul]; norm_num

/-- √64 = 8 on the extended reals. -/
theorem sqrt_64 : Ideal.sqrt ((64 : ℝ) : EReal) = ((8 : ℝ) : EReal) := by
  show (if (64 : ℝ) < 0 then (⊥ : EReal) else (Real.sqrt 64 : EReal)) = _
  rw [if_neg (by norm_num)]
  have h : Real.sqrt 64 = 8 := by
    rw [show (64 : ℝ) = 8 * 8 by norm_num]; exact Real.sqrt_mul_self (by norm_num)
  rw [h]

/-- Dividing by √64 and then by 1 is multiplying by 1/8, on every extended real. -/
theorem scale_law (X : EReal) :
    Ideal.div (Ideal.div X (Ideal.sqrt (Ideal.ofBits .f32 0x42800000#32))) (Ideal.ofBits .f32 0x3F800000#32)
      = X * eighth := by
  rw [ofBits_64, sqrt_64, ofBits_one, Ideal.div_coe (by norm_num : (8 : ℝ) ≠ 0),
    Ideal.div_coe (by norm_num : (1 : ℝ) ≠ 0)]
  show _ = X * Ideal.ofBits .f32 0x3E000000#32
  rw [ofBits_eighth]
  simp

end Cert.Attention

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KernelScore.lean ====
/-
  The kernel's first stretch, for one item of a block, read at an index: the concatenated rows with the positional
  rows added are the item, and the scaled product of its two projections is the item's scores.
-/
import proofs.«156792_j35476429865426_1_alg».proof.Proof.Gen.KernelIdeal.Skeleton
import proofs.«156792_j35476429865426_1_alg».proof.Proof.Attention
import proofs.«156792_j35476429865426_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ItemValue

open Cert.KernelIdeal Cert.KernelIdeal.Gen Idealize.ShloMosaic Idealize.ShloMosaic.ValueIdx

/-! ### The item: two blocks of 128 columns side by side, plus the positional rows -/

/-- Two blocks of 128 columns joined along the last axis, read at (b, t, h): the first block's row below column 128,
    the second block's row, 128 columns back, from there on. -/
theorem concat_apply (x0 x1 : FVec Ideal S32x64x128 .f32) (b : Fin 32) (t : Fin 64) (h : Fin 256) :
    concatenate S32x64x256 2 [⟨S32x64x128, x0⟩, ⟨S32x64x128, x1⟩] Facts₀.concatenates_S32x64x128_S32x64x128_S32x64x256_d2 (ix3 b t h)
      = Cert.Attention.cat (fun f => x0 (ix3 b t f)) (fun f => x1 (ix3 b t f)) h := by
  unfold Cert.Attention.cat
  by_cases hh : h.val < 128
  · rw [dif_pos hh]
    exact concatenate_pair_apply_left (2 : Fin 3) x0 x1 _ (ix3 b t h) rfl (ix3 b t ⟨h.val, hh⟩)
      (fun a => match a with | ⟨0, _⟩ => rfl | ⟨1, _⟩ => rfl | ⟨2, _⟩ => rfl)
  · rw [dif_neg hh]
    have hlt : h.val - 128 < 128 := by have := h.isLt; omega
    refine concatenate_pair_apply_right (2 : Fin 3) x0 x1 _ (ix3 b t h) rfl rfl (ix3 b t ⟨h.val - 128, hlt⟩) ?_ ?_
    · intro a ha
      match a with
      | ⟨0, _⟩ => rfl
      | ⟨1, _⟩ => rfl
      | ⟨2, _⟩ => exact absurd rfl ha
    · show h.val - 128 + 128 = h.val
      omega

/-- The positional rows, re-laid with a leading unit axis and repeated over the 32 items, read at (b, t, h): row t,
    column h of the table. -/
theorem positional_apply (x4 : FVec Ideal S64x256 .f32) (b : Fin 32) (t : Fin 64) (h : Fin 256) :
    broadcastTo S32x64x256 (shapeCast S1x64x256 (shapeCast S64x256 x4 Facts₀.shapeCasts_S64x256_S64x256) Facts₀.shapeCasts_S64x256_S1x64x256)
      Facts₀.broadcasts_S1x64x256_S32x64x256 (ix3 b t h) = x4 (ix2 t h) := by
  rw [shapeCast_self]
  refine (broadcastTo_apply _ _ (ix3 b t h) (ix3 (0 : Fin 1) t h) ?_).trans ?_
  · intro a
    match a with
    | ⟨0, _⟩ => rfl
    | ⟨1, _⟩ => rfl
    | ⟨2, _⟩ => rfl
  · exact shapeCast_ab_1ab_apply x4 _ 0 t h

/-- Entry (b, t, h) of the block's concatenated and shifted input is entry (t, h) of item b. -/
theorem item_payload (x0 x1 : Vec Ideal S32x64x128 .f32) (x4 : Vec Ideal S64x256 .f32)
    (b : Fin 32) (t : Fin 64) (h : Fin 256) :
    k0_pay4 (F := Ideal) x0 x1 x4 (ix3 b t h) = Cert.Attention.itemOfBlock x0 x1 x4 b t h := by
  unfold k0_pay4 Cert.Attention.itemOfBlock
  rw [addf_apply]
  exact congrArg₂ (· + ·) (concat_apply x0 x1 b t h) (positional_apply x4 b t h)

/-! ### The batched product: item by item, rows of the left factor against rows of the right one -/

/-- The left factor is read at the result's item … -/
theorem lhs_batched_0 (i : S32x64x64.Idx) (q : dot_S32x64x256_S32x64x256_S32x64x64_2_2_1_1_0_0.contr.Idx) :
    (dot_S32x64x256_S32x64x256_S32x64x64_2_2_1_1_0_0.lhsIdx i q 0).val = (i 0).val := by
  unfold DotDims.lhsIdx
  rw [dif_pos (show (0 : Fin S32x64x256.rank) ∈ dot_S32x64x256_S32x64x256_S32x64x64_2_2_1_1_0_0.lhsBatch by decide)]
  rfl
/-- … at the result's row … -/
theorem lhs_batched_1 (i : S32x64x64.Idx) (q : dot_S32x64x256_S32x64x256_S32x64x64_2_2_1_1_0_0.contr.Idx) :
    (dot_S32x64x256_S32x64x256_S32x64x64_2_2_1_1_0_0.lhsIdx i q 1).val = (i 1).val := by
  unfold DotDims.lhsIdx
  rw [dif_neg (show ¬(1 : Fin S32x64x256.rank) ∈ dot_S32x64x256_S32x64x256_S32x64x64_2_2_1_1_0_0.lhsBatch by decide),
    dif_pos (show (1 : Fin S32x64x256.rank) ∈ dot_S32x64x256_S32x64x256_S32x64x64_2_2_1_1_0_0.lhsNonContracting by decide)]
  rfl
/-- … and at the contracted column. -/
theorem lhs_batched_2 (i : S32x64x64.Idx) (q : dot_S32x64x256_S32x64x256_S32x64x64_2_2_1_1_0_0.contr.Idx) :
    (dot_S32x64x256_S32x64x256_S32x64x64_2_2_1_1_0_0.lhsIdx i q 2).val = (q ⟨0, by decide⟩).val :=
  dot_S32x64x256_S32x64x256_S32x64x64_2_2_1_1_0_0.lhsIdx_val_of_single rfl i q
/-- The right factor is read at the result's item … -/
theorem rhs_batched_0 (i : S32x64x64.Idx) (q : dot_S32x64x256_S32x64x256_S32x64x64_2_2_1_1_0_0.contr.Idx) :
    (dot_S32x64x256_S32x64x256_S32x64x64_2_2_1_1_0_0.rhsIdx i q 0).val = (i 0).val := by
  unfold DotDims.rhsIdx
  rw [dif_pos (show (0 : Fin S32x64x256.rank) ∈ dot_S32x64x256_S32x64x256_S32x64x64_2_2_1_1_0_0.rhsBatch by decide)]
  rfl
/-- … at the row the result's column names … -/
theorem rhs_batched_1 (i : S32x64x64.Idx) (q : dot_S32x64x256_S32x64x256_S32x64x64_2_2_1_1_0_0.contr.Idx) :
    (dot_S32x64x256_S32x64x256_S32x64x64_2_2_1_1_0_0.rhsIdx i q 1).val = (i 2).val := by
  unfold DotDims.rhsIdx
  rw [dif_neg (show ¬(1 : Fin S32x64x256.rank) ∈ dot_S32x64x256_S32x64x256_S32x64x64_2_2_1_1_0_0.rhsBatch by decide),
    dif_pos (show (1 : Fin S32x64x256.rank) ∈ dot_S32x64x256_S32x64x256_S32x64x64_2_2_1_1_0_0.rhsNonContracting by decide)]
  rfl
/-- … and at the contracted column. -/
theorem rhs_batched_2 (i : S32x64x64.Idx) (q : dot_S32x64x256_S32x64x256_S32x64x64_2_2_1_1_0_0.contr.Idx) :
    (dot_S32x64x256_S32x64x256_S32x64x64_2_2_1_1_0_0.rhsIdx i q 2).val = (q ⟨0, by decide⟩).val :=
  dot_S32x64x256_S32x64x256_S32x64x64_2_2_1_1_0_0.rhsIdx_val_of_single rfl i q

/-- The batched product into zero, read at (b, t, s): the sum over d of the left factor at (b, t, d) times the right
    factor at (b, s, d). -/
theorem batched_apply {φ₁ φ₂ : FTy} (l : FVec Ideal S32x64x256 φ₁) (r : FVec Ideal S32x64x256 φ₂)
    (b : Fin 32) (t s : Fin 64) :
    FloatOps.matmul dot_S32x64x256_S32x64x256_S32x64x64_2_2_1_1_0_0 none l r (constant S32x64x64 .f32 0x00000000#32) (ix3 b t s)
      = ∑ d : Fin 256, l (ix3 b t d) * r (ix3 b s d) := by
  rw [Ideal.matmul_constant_zero_apply,
    ← Equiv.sum_comp (contrEquiv1 dot_S32x64x256_S32x64x256_S32x64x64_2_2_1_1_0_0 256 rfl rfl).symm]
  refine Finset.sum_congr rfl fun k _ => ?_
  have hk := contrEquiv1_symm_val dot_S32x64x256_S32x64x256_S32x64x64_2_2_1_1_0_0 256 rfl rfl k
  have el : dot_S32x64x256_S32x64x256_S32x64x64_2_2_1_1_0_0.lhsIdx (ix3 b t s)
      ((contrEquiv1 dot_S32x64x256_S32x64x256_S32x64x64_2_2_1_1_0_0 256 rfl rfl).symm k) = ix3 b t k := funext fun a => Fin.ext (by
    match a with
    | ⟨0, _⟩ => exact lhs_batched_0 _ _
    | ⟨1, _⟩ => exact lhs_batched_1 _ _
    | ⟨2, _⟩ => exact (lhs_batched_2 _ _).trans hk)
  have er : dot_S32x64x256_S32x64x256_S32x64x64_2_2_1_1_0_0.rhsIdx (ix3 b t s)
      ((contrEquiv1 dot_S32x64x256_S32x64x256_S32x64x64_2_2_1_1_0_0 256 rfl rfl).symm k) = ix3 b s k := funext fun a => Fin.ext (by
    match a with
    | ⟨0, _⟩ => exact rhs_batched_0 _ _
    | ⟨1, _⟩ => exact rhs_batched_1 _ _
    | ⟨2, _⟩ => exact (rhs_batched_2 _ _).trans hk)
  rw [el, er]

/-! ### The two projections: the block flattened to 2048 rows, multiplied by a weight, and cut back into items -/

/-- The block flattened to [2048, 256]: row 64·b + t is row t of item b. -/
theorem flatten_apply {φ : FTy} (x : FVec Ideal S32x64x256 φ) (b : Fin 32) (t : Fin 64) (h : Fin 256)
    (r : Fin 2048) (hr : r.val = b.val * 64 + t.val) :
    shapeCast S2048x256 x Facts₀.shapeCasts_S32x64x256_S2048x256 (ix2 r h) = x (ix3 b t h) :=
  shapeCast_apply x _ _ _ (by
    rw [Shape.rowMajor_val_three, Shape.rowMajor_val_two]
    show (b.val * 64 + t.val) * 256 + h.val = r.val * 256 + h.val
    rw [hr])

/-- A [2048, 256] array cut into 32 items of 64 rows: row t of item b is row 64·b + t. -/
theorem unflatten_apply {φ : FTy} (y : FVec Ideal S2048x256 φ) (b : Fin 32) (t : Fin 64) (d : Fin 256)
    (r : Fin 2048) (hr : r.val = b.val * 64 + t.val) :
    shapeCast S32x64x256 y Facts₀.shapeCasts_S2048x256_S32x64x256 (ix3 b t d) = y (ix2 r d) :=
  shapeCast_apply y _ _ _ (by
    rw [Shape.rowMajor_val_three, Shape.rowMajor_val_two]
    show r.val * 256 + d.val = (b.val * 64 + t.val) * 256 + d.val
    rw [hr])

/-- The projection's dimension numbers are those of a plain row-by-column product. -/
theorem projection_isPlain : PlainDot.IsPlain dot_S2048x256_S256x256_S2048x256_1_0_0_1_n_n :=
  ⟨rfl, rfl, rfl, rfl, rfl, rfl⟩

/-- The flattened block times a weight, cut back into items, read at (b, t, d): row t of item b against column d of
    the weight. -/
theorem projection_apply {φ₁ φ₂ : FTy} (x : FVec Ideal S32x64x256 φ₁) (w : FVec Ideal S256x256 φ₂)
    (b : Fin 32) (t : Fin 64) (d : Fin 256) :
    shapeCast S32x64x256
        (FloatOps.matmul dot_S2048x256_S256x256_S2048x256_1_0_0_1_n_n none
          (shapeCast S2048x256 x Facts₀.shapeCasts_S32x64x256_S2048x256) w (constant S2048x256 .f32 0x00000000#32))
        Facts₀.shapeCasts_S2048x256_S32x64x256 (ix3 b t d)
      = ∑ h : Fin 256, x (ix3 b t h) * w (ix2 h d) := by
  have hlt : b.val * 64 + t.val < 2048 := by have := b.isLt; have := t.isLt; omega
  refine (unflatten_apply _ b t d ⟨b.val * 64 + t.val, hlt⟩ rfl).trans ?_
  refine (PlainDot.matmul_zero_apply projection_isPlain none _ w _ d).trans ?_
  exact Finset.sum_congr rfl fun h _ => congrArg (· * w (ix2 h d)) (flatten_apply x b t h _ rfl)

/-! ### The scaled scores -/

/-- Entry (b, t, s) of the block's scaled scores is the score (t, s) of item b. -/
theorem score_payload (x0 x1 : Vec Ideal S32x64x128 .f32) (x4 : Vec Ideal S64x256 .f32) (x2 x3 : Vec Ideal S256x256 .f32)
    (b : Fin 32) (t s : Fin 64) :
    k0_pay5 (F := Ideal) x0 x1 x4 x2 x3 (ix3 b t s)
      = Cert.Attention.score (Cert.Attention.itemOfBlock x0 x1 x4 b) (Cert.Attention.mat x2) (Cert.Attention.mat x3) t s := by
  unfold k0_pay5 Cert.Attention.score
  rw [mulf_apply, broadcast_apply]
  refine congrArg₂ (· * ·) ?_ rfl
  refine (batched_apply _ _ b t s).trans ?_
  refine Finset.sum_congr rfl fun d _ => ?_
  rw [truncf_apply, truncf_apply]
  refine congrArg₂ (· * ·) ?_ ?_
  · refine (projection_apply _ _ b t d).trans ?_
    unfold Cert.Attention.proj Cert.Attention.mat
    refine Finset.sum_congr rfl fun h _ => ?_
    rw [truncf_apply, truncf_apply, item_payload]
  · refine (projection_apply _ _ b s d).trans ?_
    unfold Cert.Attention.proj Cert.Attention.mat
    refine Finset.sum_congr rfl fun h _ => ?_
    rw [truncf_apply, truncf_apply, item_payload]

end Cert.KernelIdeal.ItemValue

end
-- ==== Proof.KernelOutputs.lean ====
/-
  The kernel's two stored values, for one item of a block, read at an index: the softmax of the item's scores (and
  of their negatives) times the item, the item added back to the first.

  Three readings carry the proof. A [32, 64] array given a trailing unit axis and spread over 64 columns reads, at
  (b, t, s), its own entry (b, t); so a row's maximum and a row's sum come back to every column of the row. A
  reduction along the last axis of a [32, 64, 64] array reads, at (b, t), the fold (of max, or of +) over the row
  (b, t, ·). The per-item product of a [64, 64] matrix and a [64, 256] matrix into zeros reads, at (b, t, d),
  Σ_s l(b, t, s) · r(b, s, d). With these the chain "meet the row maximum with −∞, subtract, exponentiate, divide by
  the row's sum" is the softmax of the row, whatever block of scores and row maxima it is run on; the first output runs
  it on the scores, the second on 0 − scores.
-/
import proofs.«156792_j35476429865426_1_alg».proof.Proof.KernelScore
import proofs.«156792_j35476429865426_1_alg».proof.Proof.Gen.KernelIdeal.Skeleton
import proofs.«156792_j35476429865426_1_alg».proof.Proof.Attention
import Idealize.ShloMosaic.Lib.Pipeline.Value
import Idealize.ShloMosaic.Lib.ValueIdx
import Idealize.ShloMosaic.PureOps.Ideal.Laws

noncomputable section

namespace Cert.KernelIdeal.ItemValue

open Cert.KernelIdeal Cert.KernelIdeal.Gen Idealize.ShloMosaic Idealize.ShloMosaic.ValueIdx

/-! ## A row's value spread back over the row, and the two reductions along a row -/

/-- A [32, 64] array given a trailing unit axis and then spread along it over 64 columns reads, at (b, t, s), the
    array at (b, t). -/
theorem keepdims_apply {α : Type} (v : S32x64.Idx → α) (h1 : S32x64.ShapeCasts S32x64x1) (h2 : S32x64x1.Broadcasts S32x64x64)
    (b : Fin 32) (t s : Fin 64) :
    broadcastTo S32x64x64 (shapeCast S32x64x1 v h1) h2 (ix3 b t s) = v (ix2 b t) := by
  refine (broadcastTo_apply _ h2 (ix3 b t s) (ix3 b t (0 : Fin 1)) fun ax => ?_).trans ?_
  · match ax with
    | ⟨0, _⟩ => rfl
    | ⟨1, _⟩ => rfl
    | ⟨2, _⟩ => rfl
  · refine shapeCast_apply v h1 (ix3 b t (0 : Fin 1)) (ix2 b t) ?_
    rw [Shape.rowMajor_val_three, Shape.rowMajor_val_two]
    show b.val * 64 + t.val = (b.val * 64 + t.val) * 1 + 0
    omega

/-- The maximum along the last axis of a [32, 64, 64] array, started from −∞, read at (b, t): the fold of max over
    the row. -/
theorem rowmax_apply (sc : FVec Ideal S32x64x64 .f32) (h : S32x64x64.Reduces [2] S32x64) (hφ : FKind.Formats .f32)
    (hacc : (0xFF800000#32 : BitVec 32) = FKind.maximumf.neutral .f32 hφ) (b : Fin 32) (t : Fin 64) :
    multiReduction (F := Ideal) .maximumf [2] S32x64 sc 0xFF800000#32 h hφ hacc (ix2 b t)
      = Finset.univ.fold max Cert.Attention.negInf (fun k : Fin 64 => sc (ix3 b t k)) := by
  refine (Ideal.multiReduction_maximumf_single sc 0xFF800000#32 h hφ hacc (ix2 b t)).trans ?_
  refine congrArg (Finset.univ.fold max _) (funext fun k => ?_)
  exact congrArg sc (funext fun a => Fin.ext (by match a with | ⟨0, _⟩ => rfl | ⟨1, _⟩ => rfl | ⟨2, _⟩ => rfl))

/-- The sum along the last axis of a [32, 64, 64] array read at (b, t): the sum over the row. -/
theorem rowsum_apply (e : FVec Ideal S32x64x64 .f32) (h : S32x64x64.Reduces [2] S32x64) (hφ : FKind.Formats .f32)
    (hacc : (0x00000000#32 : BitVec 32) = FKind.add.neutral .f32 hφ) (b : Fin 32) (t : Fin 64) :
    multiReduction (F := Ideal) .add [2] S32x64 e 0x00000000#32 h hφ hacc (ix2 b t) = ∑ k : Fin 64, e (ix3 b t k) := by
  refine (Ideal.multiReduction_add_single e 0x00000000#32 h hφ hacc (ix2 b t)).trans ?_
  refine Finset.sum_congr rfl fun k _ => ?_
  exact congrArg e (funext fun a => Fin.ext (by match a with | ⟨0, _⟩ => rfl | ⟨1, _⟩ => rfl | ⟨2, _⟩ => rfl))

/-! ## The batched product read at an index -/

/-- The left operand's index under output index i and contraction index q: the item from i, … -/
theorem bmm_lhs_0 (i : S32x64x256.Idx) (q : dot_S32x64x64_S32x64x256_S32x64x256_2_1_1_2_0_0.contr.Idx) :
    (dot_S32x64x64_S32x64x256_S32x64x256_2_1_1_2_0_0.lhsIdx i q 0).val = (i 0).val := by
  unfold DotDims.lhsIdx
  rw [dif_pos (show (0 : Fin S32x64x64.rank) ∈ dot_S32x64x64_S32x64x256_S32x64x256_2_1_1_2_0_0.lhsBatch by decide)]
  rfl
/-- … the row from i, … -/
theorem bmm_lhs_1 (i : S32x64x256.Idx) (q : dot_S32x64x64_S32x64x256_S32x64x256_2_1_1_2_0_0.contr.Idx) :
    (dot_S32x64x64_S32x64x256_S32x64x256_2_1_1_2_0_0.lhsIdx i q 1).val = (i 1).val := by
  unfold DotDims.lhsIdx
  rw [dif_neg (show ¬(1 : Fin S32x64x64.rank) ∈ dot_S32x64x64_S32x64x256_S32x64x256_2_1_1_2_0_0.lhsBatch by decide), dif_pos (show (1 : Fin S32x64x64.rank) ∈ dot_S32x64x64_S32x64x256_S32x64x256_2_1_1_2_0_0.lhsNonContracting by decide)]
  rfl
/-- … the column from q. -/
theorem bmm_lhs_2 (i : S32x64x256.Idx) (q : dot_S32x64x64_S32x64x256_S32x64x256_2_1_1_2_0_0.contr.Idx) :
    (dot_S32x64x64_S32x64x256_S32x64x256_2_1_1_2_0_0.lhsIdx i q 2).val = (q ⟨0, by decide⟩).val :=
  dot_S32x64x64_S32x64x256_S32x64x256_2_1_1_2_0_0.lhsIdx_val_of_single rfl i q
/-- The right operand's index: the item from i, … -/
theorem bmm_rhs_0 (i : S32x64x256.Idx) (q : dot_S32x64x64_S32x64x256_S32x64x256_2_1_1_2_0_0.contr.Idx) :
    (dot_S32x64x64_S32x64x256_S32x64x256_2_1_1_2_0_0.rhsIdx i q 0).val = (i 0).val := by
  unfold DotDims.rhsIdx
  rw [dif_pos (show (0 : Fin S32x64x256.rank) ∈ dot_S32x64x64_S32x64x256_S32x64x256_2_1_1_2_0_0.rhsBatch by decide)]
  rfl
/-- … the row from q, … -/
theorem bmm_rhs_1 (i : S32x64x256.Idx) (q : dot_S32x64x64_S32x64x256_S32x64x256_2_1_1_2_0_0.contr.Idx) :
    (dot_S32x64x64_S32x64x256_S32x64x256_2_1_1_2_0_0.rhsIdx i q 1).val = (q ⟨0, by decide⟩).val :=
  dot_S32x64x64_S32x64x256_S32x64x256_2_1_1_2_0_0.rhsIdx_val_of_single rfl i q
/-- … the column from i. -/
theorem bmm_rhs_2 (i : S32x64x256.Idx) (q : dot_S32x64x64_S32x64x256_S32x64x256_2_1_1_2_0_0.contr.Idx) :
    (dot_S32x64x64_S32x64x256_S32x64x256_2_1_1_2_0_0.rhsIdx i q 2).val = (i 2).val := by
  unfold DotDims.rhsIdx
  rw [dif_neg (show ¬(2 : Fin S32x64x256.rank) ∈ dot_S32x64x64_S32x64x256_S32x64x256_2_1_1_2_0_0.rhsBatch by decide), dif_pos (show (2 : Fin S32x64x256.rank) ∈ dot_S32x64x64_S32x64x256_S32x64x256_2_1_1_2_0_0.rhsNonContracting by decide)]
  rfl

/-- Per item b, a [64, 64] matrix times a [64, 256] matrix, added into zeros: entry (b, t, d) is Σ_s l(b,t,s) · r(b,s,d). -/
theorem bmm_apply {φ₁ φ₂ : FTy} (l : FVec Ideal S32x64x64 φ₁) (r : FVec Ideal S32x64x256 φ₂) (b : Fin 32) (t : Fin 64) (d : Fin 256) :
    matmul dot_S32x64x64_S32x64x256_S32x64x256_2_1_1_2_0_0 none l r (constant (F := Ideal) S32x64x256 .f32 0x00000000#32) (ix3 b t d)
      = ∑ s : Fin 64, l (ix3 b t s) * r (ix3 b s d) := by
  simp only [matmul]
  rw [Ideal.matmul_constant_zero_apply, ← Equiv.sum_comp (contrEquiv1 dot_S32x64x64_S32x64x256_S32x64x256_2_1_1_2_0_0 64 rfl rfl).symm]
  refine Finset.sum_congr rfl fun k _ => ?_
  have hk := contrEquiv1_symm_val dot_S32x64x64_S32x64x256_S32x64x256_2_1_1_2_0_0 64 rfl rfl k
  have el : dot_S32x64x64_S32x64x256_S32x64x256_2_1_1_2_0_0.lhsIdx (ix3 b t d) ((contrEquiv1 dot_S32x64x64_S32x64x256_S32x64x256_2_1_1_2_0_0 64 rfl rfl).symm k) = ix3 b t k := funext fun a => Fin.ext (by
    match a with
    | ⟨0, _⟩ => exact bmm_lhs_0 _ _
    | ⟨1, _⟩ => exact bmm_lhs_1 _ _
    | ⟨2, _⟩ => exact (bmm_lhs_2 _ _).trans hk)
  have er : dot_S32x64x64_S32x64x256_S32x64x256_2_1_1_2_0_0.rhsIdx (ix3 b t d) ((contrEquiv1 dot_S32x64x64_S32x64x256_S32x64x256_2_1_1_2_0_0 64 rfl rfl).symm k) = ix3 b k d := funext fun a => Fin.ext (by
    match a with
    | ⟨0, _⟩ => exact bmm_rhs_0 _ _
    | ⟨1, _⟩ => exact (bmm_rhs_1 _ _).trans hk
    | ⟨2, _⟩ => exact bmm_rhs_2 _ _)
  rw [el, er]

/-! ## The softmax of a block of scores read at an index -/

/-- The chain the body runs on a block of scores `sc` whose row maxima (from −∞) are `mx`: meet with −∞ once more,
    subtract, exponentiate, divide by the row's sum. At (b, t, s), with z the row (b, t) of the scores, it is the
    softmax of z at s. -/
theorem softmax_apply (sc : FVec Ideal S32x64x64 .f32) (mx : FVec Ideal S32x64 .f32)
    (h1 : S32x64.ShapeCasts S32x64x1) (h2 : S32x64x1.Broadcasts S32x64x64) (hr : S32x64x64.Reduces [2] S32x64)
    (hφ : FKind.Formats .f32) (hacc : (0x00000000#32 : BitVec 32) = FKind.add.neutral .f32 hφ)
    (b : Fin 32) (t : Fin 64) (z : Fin 64 → EReal) (hz : ∀ s, sc (ix3 b t s) = z s)
    (hm : mx (ix2 b t) = Finset.univ.fold max Cert.Attention.negInf z) (s : Fin 64) :
    divf (exp (subf sc (broadcastTo S32x64x64 (shapeCast S32x64x1 (maximumf (broadcast S32x64 (Scalar.ofBits (F := Ideal) .f32 0xFF800000#32)) mx) h1) h2)))
        (broadcastTo S32x64x64 (shapeCast S32x64x1 (multiReduction (F := Ideal) .add [2] S32x64 (exp (subf sc (broadcastTo S32x64x64 (shapeCast S32x64x1 (maximumf (broadcast S32x64 (Scalar.ofBits (F := Ideal) .f32 0xFF800000#32)) mx) h1) h2))) 0x00000000#32 hr hφ hacc) h1) h2) (ix3 b t s)
      = Cert.Attention.soft z s := by
  have hshift : ∀ k : Fin 64, (exp (subf sc (broadcastTo S32x64x64 (shapeCast S32x64x1 (maximumf (broadcast S32x64 (Scalar.ofBits (F := Ideal) .f32 0xFF800000#32)) mx) h1) h2))) (ix3 b t k) = Ideal.exp (z k - Cert.Attention.rowMax z) := by
    intro k
    show Ideal.exp (sc (ix3 b t k) - (broadcastTo S32x64x64 (shapeCast S32x64x1 (maximumf (broadcast S32x64 (Scalar.ofBits (F := Ideal) .f32 0xFF800000#32)) mx) h1) h2) (ix3 b t k)) = _
    rw [keepdims_apply, hz k]
    show Ideal.exp (z k - max (Ideal.ofBits .f32 0xFF800000#32) (mx (ix2 b t))) = _
    rw [hm]
    rfl
  show Ideal.div ((exp (subf sc (broadcastTo S32x64x64 (shapeCast S32x64x1 (maximumf (broadcast S32x64 (Scalar.ofBits (F := Ideal) .f32 0xFF800000#32)) mx) h1) h2))) (ix3 b t s)) (broadcastTo S32x64x64 (shapeCast S32x64x1 (multiReduction (F := Ideal) .add [2] S32x64 (exp (subf sc (broadcastTo S32x64x64 (shapeCast S32x64x1 (maximumf (broadcast S32x64 (Scalar.ofBits (F := Ideal) .f32 0xFF800000#32)) mx) h1) h2))) 0x00000000#32 hr hφ hacc) h1) h2 (ix3 b t s)) = _
  rw [keepdims_apply, rowsum_apply, hshift s]
  unfold Cert.Attention.soft
  exact congrArg _ (Finset.sum_congr rfl fun k _ => hshift k)

/-! ## The two stored values -/

/-- Row (b, t) of the block's negated scores is the negated score row of item b. -/
theorem negscore_payload (x0 x1 : Vec Ideal S32x64x128 .f32) (x4 : Vec Ideal S64x256 .f32) (x2 x3 : Vec Ideal S256x256 .f32)
    (b : Fin 32) (t : Fin 64) (s : Fin 64) :
    k0_pay7 (F := Ideal) x0 x1 x4 x2 x3 (ix3 b t s)
      = -Cert.Attention.score (Cert.Attention.itemOfBlock x0 x1 x4 b) (Cert.Attention.mat x2) (Cert.Attention.mat x3) t s := by
  unfold k0_pay7
  show Ideal.ofBits .f32 0x00000000#32 - k0_pay5 (F := Ideal) x0 x1 x4 x2 x3 (ix3 b t s) = _
  rw [Ideal.ofBits_zero_f32, zero_sub, score_payload]

/-- Entry (b, t) of the block's row maxima of the negated scores is the maximum, from −∞, of item b's negated score row. -/
theorem negscore_max_payload (x0 x1 : Vec Ideal S32x64x128 .f32) (x4 : Vec Ideal S64x256 .f32) (x2 x3 : Vec Ideal S256x256 .f32)
    (b : Fin 32) (t : Fin 64) :
    k0_pay8 (F := Ideal) x0 x1 x4 x2 x3 (ix2 b t)
      = Finset.univ.fold max Cert.Attention.negInf (fun s : Fin 64 =>
          -Cert.Attention.score (Cert.Attention.itemOfBlock x0 x1 x4 b) (Cert.Attention.mat x2) (Cert.Attention.mat x3) t s) := by
  unfold k0_pay8
  exact (rowmax_apply _ _ _ _ b t).trans
    (congrArg (Finset.univ.fold max _) (funext fun s => negscore_payload x0 x1 x4 x2 x3 b t s))

/-- Entry (b, t, d) of what the body stores to the first output is the first result (t, d) of item b. -/
theorem cau_payload (x0 x1 : Vec Ideal S32x64x128 .f32) (x4 : Vec Ideal S64x256 .f32) (x2 x3 : Vec Ideal S256x256 .f32)
    (b : Fin 32) (t : Fin 64) (d : Fin 256) :
    k0_pay2 (F := Ideal) (k0_pay4 x0 x1 x4) (k0_pay6 x0 x1 x4 x2 x3) (ix3 b t d)
      = Cert.Attention.cau (Cert.Attention.itemOfBlock x0 x1 x4 b) (Cert.Attention.mat x2) (Cert.Attention.mat x3) t d := by
  unfold k0_pay2 k0_pay1
  refine (congrArg₂ (· + ·) (bmm_apply _ _ b t d) (item_payload x0 x1 x4 b t d)).trans ?_
  unfold Cert.Attention.cau
  refine congrArg (· + _) (Finset.sum_congr rfl fun s _ => ?_)
  refine congrArg₂ (· * ·) ?_ (item_payload x0 x1 x4 b s d)
  unfold k0_pay6
  exact softmax_apply (k0_pay5 x0 x1 x4 x2 x3) _ _ _ _ _ _ b t _
    (fun s' => score_payload x0 x1 x4 x2 x3 b t s')
    ((rowmax_apply _ _ _ _ b t).trans
      (congrArg (Finset.univ.fold max _) (funext fun s' => score_payload x0 x1 x4 x2 x3 b t s'))) s

/-- Entry (b, t, d) of what the body stores to the second output is the second result (t, d) of item b. -/
theorem spu_payload (x0 x1 : Vec Ideal S32x64x128 .f32) (x4 : Vec Ideal S64x256 .f32) (x2 x3 : Vec Ideal S256x256 .f32)
    (b : Fin 32) (t : Fin 64) (d : Fin 256) :
    k0_pay3 (F := Ideal) (k0_pay4 x0 x1 x4) (k0_pay7 x0 x1 x4 x2 x3) (k0_pay8 x0 x1 x4 x2 x3) (Scalar.ofBits .f32 0xFF800000#32) (ix3 b t d)
      = Cert.Attention.spu (Cert.Attention.itemOfBlock x0 x1 x4 b) (Cert.Attention.mat x2) (Cert.Attention.mat x3) t d := by
  unfold k0_pay3 k0_pay1
  refine (bmm_apply _ _ b t d).trans ?_
  unfold Cert.Attention.spu
  refine Finset.sum_congr rfl fun s _ => ?_
  refine congrArg₂ (· * ·) ?_ (item_payload x0 x1 x4 b s d)
  exact softmax_apply (k0_pay7 x0 x1 x4 x2 x3) (k0_pay8 x0 x1 x4 x2 x3) _ _ _ _ _ b t _
    (fun s' => negscore_payload x0 x1 x4 x2 x3 b t s')
    (negscore_max_payload x0 x1 x4 x2 x3 b t) s

end Cert.KernelIdeal.ItemValue

end
-- ==== Proof.Blocks.lean ====
/-
  From blocks to arrays. Grid point p of the 128 stages items 32·p … 32·p + 31 of the two input arrays, the whole of
  the two weights and the first 64 positional rows, and writes back items 32·p … 32·p + 31 of each result. So what
  point p writes is block p of the specification's array, the 128 blocks tile each result, and after the run each
  result array IS the specification's array of the five arguments.
-/
import proofs.«156792_j35476429865426_1_alg».proof.Proof.Gen.KernelIdeal.Value
import proofs.«156792_j35476429865426_1_alg».proof.Proof.KernelOutputs
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The grid has 128 points. -/
theorem point_lt (t : Fin cfg0.N) : t.val < 128 := by
  have h := t.isLt
  have e : cfg0.N = 128 := N_0
  omega

/-- Where each window's block sits at point t: the item windows move with the point along the item axis, the
    weights and the positional rows stay put. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## The input blocks -/

/-- Entry (b, s, f) of the real parts' block at point t is entry (32·t + b, s, f) of the array. -/
theorem re_block (c : Dev nD) (t : Fin cfg0.N) (x : S32x64x128.Idx) (k : S4096x64x128.Idx)
    (h0 : (k 0).val = 32 * t.val + (x 0).val) (h1 : (k 1).val = (x 1).val) (h2 : (k 2).val = (x 2).val) :
    (iblk m c 0 t : Vec Ideal S32x64x128 .f32) x = (m ((c : Thread nD τ).loc main_arg0) : S4096x64x128.Idx → Elt Ideal .f32) k := by
  obtain ⟨⟨e0, e1, e2⟩, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 32 + 1 * (x 0).val = (k 0).val; rw [e0, h0]; omega
  | ⟨1, _⟩ => show win0_0.index t (1 : Fin 3) * 64 + 1 * (x 1).val = (k 1).val; rw [e1, h1]; omega
  | ⟨2, _⟩ => show win0_0.index t (2 : Fin 3) * 128 + 1 * (x 2).val = (k 2).val; rw [e2, h2]; omega

/-- The imaginary parts' block likewise. -/
theorem im_block (c : Dev nD) (t : Fin cfg0.N) (x : S32x64x128.Idx) (k : S4096x64x128.Idx)
    (h0 : (k 0).val = 32 * t.val + (x 0).val) (h1 : (k 1).val = (x 1).val) (h2 : (k 2).val = (x 2).val) :
    (iblk m c 1 t : Vec Ideal S32x64x128 .f32) x = (m ((c : Thread nD τ).loc main_arg1) : S4096x64x128.Idx → Elt Ideal .f32) k := by
  obtain ⟨-, ⟨e0, e1, e2⟩, -⟩ := index_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 32 + 1 * (x 0).val = (k 0).val; rw [e0, h0]; omega
  | ⟨1, _⟩ => show win0_1.index t (1 : Fin 3) * 64 + 1 * (x 1).val = (k 1).val; rw [e1, h1]; omega
  | ⟨2, _⟩ => show win0_1.index t (2 : Fin 3) * 128 + 1 * (x 2).val = (k 2).val; rw [e2, h2]; omega

/-- The first weight's block is the whole weight, at every point. -/
theorem qw_block (c : Dev nD) (t : Fin cfg0.N) :
    (iblk m c 2 t : Vec Ideal S256x256 .f32) = (m ((c : Thread nD τ).loc main_arg2) : S256x256.Idx → Elt Ideal .f32) := by
  obtain ⟨-, -, ⟨e0, e1⟩, -⟩ := index_facts t
  funext x
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The second weight's block likewise. -/
theorem kw_block (c : Dev nD) (t : Fin cfg0.N) :
    (iblk m c 3 t : Vec Ideal S256x256 .f32) = (m ((c : Thread nD τ).loc main_arg3) : S256x256.Idx → Elt Ideal .f32) := by
  obtain ⟨-, -, -, ⟨e0, e1⟩, -⟩ := index_facts t
  funext x
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The array the fifth window stages was cut from the positional table before the region: its first 64 rows. -/
theorem pos_rows (c : Dev nD) :
    (V m c main_v0 : S64x256.Idx → Elt Ideal .f32)
      = extractStridedSlice S64x256 ![0, 0] (m ((c : Thread nD τ).loc main_arg4)) slices_S100x256_S64x256_0_0 := by
  dsimp only [Gen.V, Gen.hostOps0]
  after_results

/-- Entry (s, h) of the positional block, at every point, is entry (s, h) of the table. -/
theorem pos_block (c : Dev nD) (t : Fin cfg0.N) (x : S64x256.Idx) (k : S100x256.Idx)
    (h0 : (k 0).val = (x 0).val) (h1 : (k 1).val = (x 1).val) :
    (iblk m c 4 t : Vec Ideal S64x256 .f32) x = (m ((c : Thread nD τ).loc main_arg4) : S100x256.Idx → Elt Ideal .f32) k := by
  obtain ⟨-, -, -, -, ⟨e0, e1⟩, -⟩ := index_facts t
  unfold iblk
  rw [View.read_apply]
  show V m c main_v0 _ = m (c.tc.loc main_arg4) _
  rw [pos_rows]
  refine extractStridedSlice_apply ![0, 0] _ slices_S100x256_S64x256_0_0 _ k (fun a => ?_)
  match a with
  | ⟨0, _⟩ => show (k 0).val = 0 + (win0_4.index t (0 : Fin 2) * 64 + 1 * (x 0).val); rw [e0, h0]; omega
  | ⟨1, _⟩ => show (k 1).val = 0 + (win0_4.index t (1 : Fin 2) * 256 + 1 * (x 1).val); rw [e1, h1]; omega

/-! ## What a point writes back -/

/-- Item b of a block whose entries are items n0 … n0 + 31 of the arrays is item n0 + b of the arrays. -/
theorem item_of_blocks (A0 A1 : S4096x64x128.Idx → EReal) (PE : S100x256.Idx → EReal)
    (x0 x1 : Vec Ideal S32x64x128 .f32) (x4 : Vec Ideal S64x256 .f32) (n0 : Nat) (hn : n0 + 32 ≤ 4096)
    (h0 : ∀ (b : Fin 32) (s : Fin 64) (f : Fin 128), x0 (ix3 b s f) = A0 (ix3 (⟨n0 + b.val, by have := b.isLt; omega⟩ : Fin 4096) s f))
    (h1 : ∀ (b : Fin 32) (s : Fin 64) (f : Fin 128), x1 (ix3 b s f) = A1 (ix3 (⟨n0 + b.val, by have := b.isLt; omega⟩ : Fin 4096) s f))
    (h4 : ∀ (s : Fin 64) (h : Fin 256), x4 (ix2 s h) = PE (ix2 (⟨s.val, by have := s.isLt; omega⟩ : Fin 100) h))
    (b : Fin 32) :
    Cert.Attention.itemOfBlock x0 x1 x4 b = Cert.Attention.itemOf A0 A1 PE (⟨n0 + b.val, by have := b.isLt; omega⟩ : Fin 4096) := by
  funext s h
  unfold Cert.Attention.itemOfBlock Cert.Attention.itemOf
  rw [h4 s h]
  congr 1
  unfold Cert.Attention.cat
  by_cases hh : h.val < 128
  · rw [dif_pos hh, dif_pos hh]; exact h0 b s _
  · rw [dif_neg hh, dif_neg hh]; exact h1 b s _

/-- The first stored value at an entry of the block is the specification's first array at the entry's place in the
    whole array. -/
theorem cau_of_blocks (A0 A1 : S4096x64x128.Idx → EReal) (QW KW : S256x256.Idx → EReal) (PE : S100x256.Idx → EReal)
    (x0 x1 : Vec Ideal S32x64x128 .f32) (x2 x3 : Vec Ideal S256x256 .f32) (x4 : Vec Ideal S64x256 .f32) (n0 : Nat) (hn : n0 + 32 ≤ 4096)
    (h0 : ∀ (b : Fin 32) (s : Fin 64) (f : Fin 128), x0 (ix3 b s f) = A0 (ix3 (⟨n0 + b.val, by have := b.isLt; omega⟩ : Fin 4096) s f))
    (h1 : ∀ (b : Fin 32) (s : Fin 64) (f : Fin 128), x1 (ix3 b s f) = A1 (ix3 (⟨n0 + b.val, by have := b.isLt; omega⟩ : Fin 4096) s f))
    (h2 : x2 = QW) (h3 : x3 = KW)
    (h4 : ∀ (s : Fin 64) (h : Fin 256), x4 (ix2 s h) = PE (ix2 (⟨s.val, by have := s.isLt; omega⟩ : Fin 100) h))
    (j : S32x64x256.Idx) (i : S4096x64x256.Idx)
    (hi0 : (i 0).val = n0 + (j 0).val) (hi1 : (i 1).val = (j 1).val) (hi2 : (i 2).val = (j 2).val) :
    k0_pay2 (F := Ideal) (k0_pay4 x0 x1 x4) (k0_pay6 x0 x1 x4 x2 x3) j = Cert.Attention.cauAll A0 A1 QW KW PE i := by
  obtain ⟨b, s, d, rfl⟩ : ∃ (b : Fin 32) (s : Fin 64) (d : Fin 256), j = ix3 b s d := ⟨j 0, j 1, j 2, eq_ix3 j⟩
  have hi : i = ix3 (⟨n0 + b.val, by have := b.isLt; omega⟩ : Fin 4096) s d :=
    funext fun a => Fin.ext (by match a with | ⟨0, _⟩ => exact hi0 | ⟨1, _⟩ => exact hi1 | ⟨2, _⟩ => exact hi2)
  subst h2 h3
  rw [hi, ItemValue.cau_payload, item_of_blocks A0 A1 PE x0 x1 x4 n0 hn h0 h1 h4 b]
  rfl

/-- The second stored value likewise. -/
theorem spu_of_blocks (A0 A1 : S4096x64x128.Idx → EReal) (QW KW : S256x256.Idx → EReal) (PE : S100x256.Idx → EReal)
    (x0 x1 : Vec Ideal S32x64x128 .f32) (x2 x3 : Vec Ideal S256x256 .f32) (x4 : Vec Ideal S64x256 .f32) (n0 : Nat) (hn : n0 + 32 ≤ 4096)
    (h0 : ∀ (b : Fin 32) (s : Fin 64) (f : Fin 128), x0 (ix3 b s f) = A0 (ix3 (⟨n0 + b.val, by have := b.isLt; omega⟩ : Fin 4096) s f))
    (h1 : ∀ (b : Fin 32) (s : Fin 64) (f : Fin 128), x1 (ix3 b s f) = A1 (ix3 (⟨n0 + b.val, by have := b.isLt; omega⟩ : Fin 4096) s f))
    (h2 : x2 = QW) (h3 : x3 = KW)
    (h4 : ∀ (s : Fin 64) (h : Fin 256), x4 (ix2 s h) = PE (ix2 (⟨s.val, by have := s.isLt; omega⟩ : Fin 100) h))
    (j : S32x64x256.Idx) (i : S4096x64x256.Idx)
    (hi0 : (i 0).val = n0 + (j 0).val) (hi1 : (i 1).val = (j 1).val) (hi2 : (i 2).val = (j 2).val) :
    k0_pay3 (F := Ideal) (k0_pay4 x0 x1 x4) (k0_pay7 x0 x1 x4 x2 x3) (k0_pay8 x0 x1 x4 x2 x3) (Scalar.ofBits .f32 0xFF800000#32) j
      = Cert.Attention.spuAll A0 A1 QW KW PE i := by
  obtain ⟨b, s, d, rfl⟩ : ∃ (b : Fin 32) (s : Fin 64) (d : Fin 256), j = ix3 b s d := ⟨j 0, j 1, j 2, eq_ix3 j⟩
  have hi : i = ix3 (⟨n0 + b.val, by have := b.isLt; omega⟩ : Fin 4096) s d :=
    funext fun a => Fin.ext (by match a with | ⟨0, _⟩ => exact hi0 | ⟨1, _⟩ => exact hi1 | ⟨2, _⟩ => exact hi2)
  subst h2 h3
  rw [hi, ItemValue.spu_payload, item_of_blocks A0 A1 PE x0 x1 x4 n0 hn h0 h1 h4 b]
  rfl

/-- What point t writes back to the first result is block t of the specification's first array of the arguments. -/
theorem flushed_cau (c : Dev nD) (t : Fin cfg0.N) :
    (dats m 0 c).flushed 5 t = ((cfg0.win 5).blk t).view.read (Elt Ideal)
      (Cert.Attention.cauAll (m ((c : Thread nD τ).loc main_arg0)) (m ((c : Thread nD τ).loc main_arg1))
        (m ((c : Thread nD τ).loc main_arg2)) (m ((c : Thread nD τ).loc main_arg3)) (m ((c : Thread nD τ).loc main_arg4))) := by
  have ht := point_lt t
  obtain ⟨-, -, -, -, -, ⟨e0, e1, e2⟩, -⟩ := index_facts t
  rw [Value.flushed5]
  unfold out0_5
  rw [View.canon_unit_zero zero3]
  simp only [View.ld_unit_zero (S := S32x64x128) zero3, View.ld_unit_zero (S := S256x256) zero2,
    View.ld_unit_zero (S := S64x256) zero2]
  funext j
  rw [View.read_apply]
  refine cau_of_blocks _ _ _ _ _ (iblk m c 0 t) (iblk m c 1 t) (iblk m c 2 t) (iblk m c 3 t) (iblk m c 4 t) (32 * t.val) (by omega)
    (fun b s f => re_block m c t _ _ rfl rfl rfl) (fun b s f => im_block m c t _ _ rfl rfl rfl)
    (qw_block m c t) (kw_block m c t) (fun s h => pos_block m c t _ _ rfl rfl) j _ ?_ ?_ ?_
  · show win0_5.index t (0 : Fin 3) * 32 + 1 * (j 0).val = 32 * t.val + (j 0).val; rw [e0]; omega
  · show win0_5.index t (1 : Fin 3) * 64 + 1 * (j 1).val = (j 1).val; rw [e1]; omega
  · show win0_5.index t (2 : Fin 3) * 256 + 1 * (j 2).val = (j 2).val; rw [e2]; omega

/-- What point t writes back to the second result is block t of the specification's second array. -/
theorem flushed_spu (c : Dev nD) (t : Fin cfg0.N) :
    (dats m 0 c).flushed 6 t = ((cfg0.win 6).blk t).view.read (Elt Ideal)
      (Cert.Attention.spuAll (m ((c : Thread nD τ).loc main_arg0)) (m ((c : Thread nD τ).loc main_arg1))
        (m ((c : Thread nD τ).loc main_arg2)) (m ((c : Thread nD τ).loc main_arg3)) (m ((c : Thread nD τ).loc main_arg4))) := by
  have ht := point_lt t
  obtain ⟨-, -, -, -, -, -, ⟨e0, e1, e2⟩⟩ := index_facts t
  rw [Value.flushed6]
  unfold out0_6
  rw [View.canon_unit_zero zero3]
  simp only [View.ld_unit_zero (S := S32x64x128) zero3, View.ld_unit_zero (S := S256x256) zero2,
    View.ld_unit_zero (S := S64x256) zero2]
  funext j
  rw [View.read_apply]
  refine spu_of_blocks _ _ _ _ _ (iblk m c 0 t) (iblk m c 1 t) (iblk m c 2 t) (iblk m c 3 t) (iblk m c 4 t) (32 * t.val) (by omega)
    (fun b s f => re_block m c t _ _ rfl rfl rfl) (fun b s f => im_block m c t _ _ rfl rfl rfl)
    (qw_block m c t) (kw_block m c t) (fun s h => pos_block m c t _ _ rfl rfl) j _ ?_ ?_ ?_
  · show win0_6.index t (0 : Fin 3) * 32 + 1 * (j 0).val = 32 * t.val + (j 0).val; rw [e0]; omega
  · show win0_6.index t (1 : Fin 3) * 64 + 1 * (j 1).val = (j 1).val; rw [e1]; omega
  · show win0_6.index t (2 : Fin 3) * 256 + 1 * (j 2).val = (j 2).val; rw [e2]; omega

/-! ## The blocks tile each result -/

/-- Entry (n, s, d) of a result lies in the block of point n / 32. -/
theorem cover_cau (i : S4096x64x256.Idx) :
    ∃ t : Fin cfg0.N, (cfg0.win 5).flush t = true ∧ i ∈ ((cfg0.win 5).blk t).view.set := by
  have h0 : (i 0).val < 4096 := (i 0).isLt
  have h1 : (i 1).val < 64 := (i 1).isLt
  have h2 : (i 2).val < 256 := (i 2).isLt
  have hN : cfg0.N = 128 := N_0
  obtain ⟨t0, ht0⟩ : ∃ t0 : Fin cfg0.N, t0.val = (i 0).val / 32 := ⟨⟨(i 0).val / 32, by omega⟩, rfl⟩
  obtain ⟨-, -, -, -, -, ⟨e0, e1, e2⟩, -⟩ := index_facts t0
  refine ⟨t0, flush0_5 t0, ?_⟩
  show i ∈ ((View.whole main_v1_0).slice (win0_5.rect t0)).set
  rw [View.set_slice_whole, Rect.mem_set_unit]
  intro a
  match a with
  | ⟨0, _⟩ =>
    show win0_5.index t0 (0 : Fin 3) * 32 ≤ (i 0).val ∧ (i 0).val < win0_5.index t0 (0 : Fin 3) * 32 + 32
    rw [e0, ht0]; omega
  | ⟨1, _⟩ =>
    show win0_5.index t0 (1 : Fin 3) * 64 ≤ (i 1).val ∧ (i 1).val < win0_5.index t0 (1 : Fin 3) * 64 + 64
    rw [e1]; omega
  | ⟨2, _⟩ =>
    show win0_5.index t0 (2 : Fin 3) * 256 ≤ (i 2).val ∧ (i 2).val < win0_5.index t0 (2 : Fin 3) * 256 + 256
    rw [e2]; omega

theorem cover_spu (i : S4096x64x256.Idx) :
    ∃ t : Fin cfg0.N, (cfg0.win 6).flush t = true ∧ i ∈ ((cfg0.win 6).blk t).view.set := by
  have h0 : (i 0).val < 4096 := (i 0).isLt
  have h1 : (i 1).val < 64 := (i 1).isLt
  have h2 : (i 2).val < 256 := (i 2).isLt
  have hN : cfg0.N = 128 := N_0
  obtain ⟨t0, ht0⟩ : ∃ t0 : Fin cfg0.N, t0.val = (i 0).val / 32 := ⟨⟨(i 0).val / 32, by omega⟩, rfl⟩
  obtain ⟨-, -, -, -, -, -, ⟨e0, e1, e2⟩⟩ := index_facts t0
  refine ⟨t0, flush0_6 t0, ?_⟩
  show i ∈ ((View.whole main_v1_1).slice (win0_6.rect t0)).set
  rw [View.set_slice_whole, Rect.mem_set_unit]
  intro a
  match a with
  | ⟨0, _⟩ =>
    show win0_6.index t0 (0 : Fin 3) * 32 ≤ (i 0).val ∧ (i 0).val < win0_6.index t0 (0 : Fin 3) * 32 + 32
    rw [e0, ht0]; omega
  | ⟨1, _⟩ =>
    show win0_6.index t0 (1 : Fin 3) * 64 ≤ (i 1).val ∧ (i 1).val < win0_6.index t0 (1 : Fin 3) * 64 + 64
    rw [e1]; omega
  | ⟨2, _⟩ =>
    show win0_6.index t0 (2 : Fin 3) * 256 ≤ (i 2).val ∧ (i 2).val < win0_6.index t0 (2 : Fin 3) * 256 + 256
    rw [e2]; omega

/-! ## The arrays after the run -/

/-- After the run the first result array is the specification's first array of the arguments. -/
theorem final_cau (c : Dev nD) :
    (dats m 0 c).arrAt 5 cfg0.N
      = Cert.Attention.cauAll (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5 _ (fun t _ => flushed_cau m c t) cover_cau

/-- After the run the second result array is the specification's second array of the arguments. -/
theorem final_spu (c : Dev nD) :
    (dats m 0 c).arrAt 6 cfg0.N
      = Cert.Attention.spuAll (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 6 _ (fun t _ => flushed_spu m c t) cover_spu

/-- Every weakly fair execution of the idealized kernel ends with the two results at the specification's arrays of
    the arguments, and the arguments as launched. -/
theorem run : θ_run defs (onTc (τ := τ) (main (F := Ideal))) ⟨m, fun _ => 0, ρ⟩ fun r => ∀ c : Dev nD,
      r.2.mem ((c : Thread nD τ).loc main_v1_0)
        = Cert.Attention.cauAll (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v1_1)
        = Cert.Attention.spuAll (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_cau m c), (h c).2.1.trans (final_spu m c), (h c).2.2⟩)
    (Value.run_blocks m ρ)

end Cert.KernelIdeal.ArrayValue

end
-- ==== Proof.ReferenceScore.lean ====
/-
  The reference's first stretch read at an index: the concatenated arrays with the positional rows added are, item by
  item, the specification's item, and the twice-divided product of its projections is the item's scores.
-/
import proofs.«156792_j35476429865426_1_alg».proof.Proof.Gen.ReferenceIdeal.Read
import proofs.«156792_j35476429865426_1_alg».proof.Proof.Attention
import Idealize.ShloMosaic.Lib.Pipeline.Value
import Idealize.ShloMosaic.Lib.ValueIdx
import Idealize.ShloMosaic.PureOps.Ideal.Laws

noncomputable section

namespace Cert.ReferenceIdeal.ItemValue

open Cert.ReferenceIdeal Cert.ReferenceIdeal.Gen Cert.ReferenceIdeal.Read Idealize.ShloMosaic Idealize.ShloMosaic.ValueIdx

/-- Entry (n, t, h) of the two arrays joined along the last axis: the first array's entry below column 128, the
    second's, 128 columns back, from there on. -/
theorem concat_apply (x0 x1 : (⟨S4096x64x128, .f32⟩ : BufTy).Contents (Elt Ideal)) (n : Fin 4096) (t : Fin 64) (h : Fin 256) :
    val_main_v0 (F := Ideal) x0 x1 (ix3 n t h)
      = Cert.Attention.cat (fun f => x0 (ix3 n t f)) (fun f => x1 (ix3 n t f)) h := by
  unfold val_main_v0 Cert.Attention.cat
  by_cases hh : h.val < 128
  · rw [dif_pos hh]
    exact concatenate_pair_apply_left 2 x0 x1 concatenates_S4096x64x128_S4096x64x128_S4096x64x256_d2 (ix3 n t h) rfl
      (ix3 n t (⟨h.val, hh⟩ : Fin 128))
      (fun b => by match b with | ⟨0, _⟩ => rfl | ⟨1, _⟩ => rfl | ⟨2, _⟩ => rfl)
  · rw [dif_neg hh]
    exact concatenate_pair_apply_right 2 x0 x1 concatenates_S4096x64x128_S4096x64x128_S4096x64x256_d2 (ix3 n t h) rfl rfl
      (ix3 n t (⟨h.val - 128, by have := h.isLt; omega⟩ : Fin 128))
      (fun b hb => by match b with | ⟨0, _⟩ => rfl | ⟨1, _⟩ => rfl | ⟨2, _⟩ => exact absurd rfl hb)
      (by show (h.val - 128) + 128 = h.val; omega)

/-- Entry (n, t, h) of the positional rows spread over all items: row t, column h of the table. -/
theorem positional_apply (x4 : (⟨S100x256, .f32⟩ : BufTy).Contents (Elt Ideal)) (n : Fin 4096) (t : Fin 64) (h : Fin 256) :
    val_main_v3 (F := Ideal) x4 (ix3 n t h) = x4 (ix2 (⟨t.val, by have := t.isLt; omega⟩ : Fin 100) h) := by
  rw [val_main_v3_apply, val_main_v2_apply, val_main_v1_apply]
  exact congrArg x4 (funext fun a => Fin.ext (by match a with | ⟨0, _⟩ => rfl | ⟨1, _⟩ => rfl))

/-- Entry (n, t, h) of the reference's shifted concatenation is entry (t, h) of item n. -/
theorem item_reference (x0 x1 : (⟨S4096x64x128, .f32⟩ : BufTy).Contents (Elt Ideal)) (x4 : (⟨S100x256, .f32⟩ : BufTy).Contents (Elt Ideal))
    (n : Fin 4096) (t : Fin 64) (h : Fin 256) :
    val_main_v4 (F := Ideal) x0 x1 x4 (ix3 n t h) = Cert.Attention.itemOf x0 x1 x4 n t h := by
  rw [val_main_v4_apply, concat_apply, positional_apply]
  rfl

/-- Entry (n, t, d) of the reference's first projection: the item's row t against column d of the first weight. -/
theorem query_reference (x0 x1 : (⟨S4096x64x128, .f32⟩ : BufTy).Contents (Elt Ideal)) (x2 : (⟨S256x256, .f32⟩ : BufTy).Contents (Elt Ideal))
    (x4 : (⟨S100x256, .f32⟩ : BufTy).Contents (Elt Ideal)) (n : Fin 4096) (t : Fin 64) (d : Fin 256) :
    val_main_v5 (F := Ideal) x0 x1 x2 x4 (ix3 n t d)
      = Cert.Attention.proj (Cert.Attention.itemOf x0 x1 x4 n) (Cert.Attention.mat x2) t d := by
  rw [val_main_v5_apply]
  unfold Cert.Attention.proj Cert.Attention.mat
  refine Finset.sum_congr rfl fun h _ => ?_
  have el : lidx_main_v5 (ix3 n t d) h = ix3 n t h :=
    funext fun a => Fin.ext (by match a with | ⟨0, _⟩ => rfl | ⟨1, _⟩ => rfl | ⟨2, _⟩ => rfl)
  have er : ridx_main_v5 (ix3 n t d) h = ix2 h d :=
    funext fun a => Fin.ext (by match a with | ⟨0, _⟩ => rfl | ⟨1, _⟩ => rfl)
  rw [el, er, item_reference]

/-- Entry (n, s, d) of the reference's second projection: the item's row s against column d of the second weight. -/
theorem key_reference (x0 x1 : (⟨S4096x64x128, .f32⟩ : BufTy).Contents (Elt Ideal)) (x3 : (⟨S256x256, .f32⟩ : BufTy).Contents (Elt Ideal))
    (x4 : (⟨S100x256, .f32⟩ : BufTy).Contents (Elt Ideal)) (n : Fin 4096) (s : Fin 64) (d : Fin 256) :
    val_main_v6 (F := Ideal) x0 x1 x3 x4 (ix3 n s d)
      = Cert.Attention.proj (Cert.Attention.itemOf x0 x1 x4 n) (Cert.Attention.mat x3) s d := by
  rw [val_main_v6_apply]
  unfold Cert.Attention.proj Cert.Attention.mat
  refine Finset.sum_congr rfl fun h _ => ?_
  have el : lidx_main_v6 (ix3 n s d) h = ix3 n s h :=
    funext fun a => Fin.ext (by match a with | ⟨0, _⟩ => rfl | ⟨1, _⟩ => rfl | ⟨2, _⟩ => rfl)
  have er : ridx_main_v6 (ix3 n s d) h = ix2 h d :=
    funext fun a => Fin.ext (by match a with | ⟨0, _⟩ => rfl | ⟨1, _⟩ => rfl)
  rw [el, er, item_reference]

/-- Entry (n, t, s) of the product of the two projections, before any scaling: the sum over the 256 columns of
    the first projection's row t times the second's row s. -/
theorem product_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v7 (F := Ideal) x0 x1 x2 x3 x4 (ix3 n t s)
      = ∑ d : Fin 256, Cert.Attention.proj (Cert.Attention.itemOf x0 x1 x4 n) (Cert.Attention.mat x2) t d
          * Cert.Attention.proj (Cert.Attention.itemOf x0 x1 x4 n) (Cert.Attention.mat x3) s d := by
  rw [val_main_v7_apply]
  refine Finset.sum_congr rfl fun d _ => ?_
  have el : lidx_main_v7 (ix3 n t s) d = ix3 n t d :=
    funext fun a => Fin.ext (by match a with | ⟨0, _⟩ => rfl | ⟨1, _⟩ => rfl | ⟨2, _⟩ => rfl)
  have er : ridx_main_v7 (ix3 n t s) d = ix3 n s d :=
    funext fun a => Fin.ext (by match a with | ⟨0, _⟩ => rfl | ⟨1, _⟩ => rfl | ⟨2, _⟩ => rfl)
  rw [el, er, query_reference, key_reference]

/-- Entry (n, t, s) of the reference's scaled scores is the score (t, s) of item n. -/
theorem score_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v12 (F := Ideal) x0 x1 x2 x3 x4 (ix3 n t s)
      = Cert.Attention.score (Cert.Attention.itemOf x0 x1 x4 n) (Cert.Attention.mat x2) (Cert.Attention.mat x3) t s := by
  rw [val_main_v12_apply, val_main_v10_apply, val_main_v9_apply, val_main_v8_apply, val_main_cst_apply,
    val_main_v11_apply, val_main_cst_0_apply, product_reference]
  simp only [Ideal.hostDivf_def, Ideal.hostUnary_sqrt_def, Ideal.ofBits_def]
  rw [Cert.Attention.scale_law]
  rfl

end Cert.ReferenceIdeal.ItemValue

end
-- ==== Proof.ReferenceOutputs.lean ====
/-
  The reference's two results are the specification's arrays: each row's softmax of the scores (and of their
  negatives) times the item, the item added back to the first.

  Each softmax is read stage by stage at an index: the row's maximum (a fold of max over the last axis from −∞, met with
  −∞ once more), the exponential of the entry less that maximum, the row's sum of those from zero, and the quotient.
  The two chains differ only in the array they start from (the scores, and the negated scores), so each stage is stated
  over "row (n, t) of the chain's first array" and proved the same way twice.
-/
import proofs.«156792_j35476429865426_1_alg».proof.Proof.ReferenceScore

noncomputable section

namespace Cert.ReferenceIdeal.ItemValue

open Cert.ReferenceIdeal Cert.ReferenceIdeal.Gen Cert.ReferenceIdeal.Read Idealize.ShloMosaic Idealize.ShloMosaic.ValueIdx

/-! ## A maximum over the last axis -/

/-- The reduced index (n, t) with k put back on the last axis is (n, t, k). -/
theorem lift_last (h : S4096x64x64.Reduces [2] S4096x64) (n : Fin 4096) (t : Fin 64) (k : Fin (S4096x64x64.size 2)) :
    h.lift (ix2 n t) k = ix3 n t (⟨k.val, k.isLt⟩ : Fin 64) := by
  funext c; apply Fin.ext
  match c with
  | ⟨0, _⟩ => rfl
  | ⟨1, _⟩ => rfl
  | ⟨2, _⟩ => rfl

/-- A maximum-reduce of a [4096, 64, 64] array over its last axis from −∞, at (n, t): the fold of max over row (n, t). -/
theorem hostReduce_max_last (y : FVec Ideal S4096x64x64 .f32) (n : Fin 4096) (t : Fin 64) :
    Host.reduce FloatOps.maximumf y (constant (F := Ideal) S_ .f32 0xFF800000#32) reducesTo_S4096x64x64_S4096x64_d2 h_S_ (ix2 n t)
      = Finset.univ.fold max Cert.Attention.negInf (fun s : Fin 64 => y (ix3 n t s)) := by
  have h : S4096x64x64.Reduces [2] S4096x64 := by decide
  have e := Host.reduce_eq_fold_single FloatOps.maximumf y (constant (F := Ideal) S_ .f32 0xFF800000#32)
    reducesTo_S4096x64x64_S4096x64_d2 h h_S_ (ix2 n t)
  refine e.trans ?_
  have hf : (y ∘ h.lift (ix2 n t)) = fun k : Fin 64 => y (ix3 n t k) := funext fun k => congrArg y (lift_last h n t k)
  exact congrArg (fun f => Finset.fold max (Ideal.ofBits .f32 0xFF800000#32) f (Finset.univ : Finset (Fin 64))) hf

/-! ## The softmax of the scores, stage by stage -/

/-- The row maximum at (n, t): the specification's maximum of row (n, t) of the stage's entries. -/
theorem rowMax_v15 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    val_main_v15 (F := Ideal) x0 x1 x2 x3 x4 (ix2 n t) = Cert.Attention.rowMax (fun s' => val_main_v12 (F := Ideal) x0 x1 x2 x3 x4 (ix3 n t s')) := by
  rw [val_main_v15_apply, val_main_v14_apply, val_main_cst_2_apply]
  unfold val_main_v13 val_main_cst_1
  rw [hostReduce_max_last]
  rfl

/-- The exponential at (n, t, s): e to the entry less its row's maximum. -/
theorem exp_v19 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v19 (F := Ideal) x0 x1 x2 x3 x4 (ix3 n t s)
      = Ideal.exp (val_main_v12 (F := Ideal) x0 x1 x2 x3 x4 (ix3 n t s) - Cert.Attention.rowMax (fun s' => val_main_v12 (F := Ideal) x0 x1 x2 x3 x4 (ix3 n t s'))) := by
  rw [val_main_v19_apply, val_main_v18_apply, val_main_v17_apply, val_main_v16_apply]
  have e : idx_main_v16 (idx_main_v17 (ix3 n t s)) = ix2 n t :=
    funext fun a => Fin.ext (by match a with | ⟨0, _⟩ => rfl | ⟨1, _⟩ => rfl)
  rw [e, rowMax_v15]
  rfl

/-- The row sum at (n, t): the sum of the row's exponentials (the sum started from zero). -/
theorem sum_v20 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    val_main_v20 (F := Ideal) x0 x1 x2 x3 x4 (ix2 n t)
      = ∑ s : Fin 64, Ideal.exp (val_main_v12 (F := Ideal) x0 x1 x2 x3 x4 (ix3 n t s) - Cert.Attention.rowMax (fun s' => val_main_v12 (F := Ideal) x0 x1 x2 x3 x4 (ix3 n t s'))) := by
  rw [val_main_v20_apply, val_main_cst_3_apply]
  show Ideal.ofBits .f32 0x00000000#32 + _ = _
  rw [Ideal.ofBits_zero_f32, zero_add]
  refine Finset.sum_congr rfl fun k _ => ?_
  have e : idx_main_v20 (ix2 n t) k = ix3 n t k :=
    funext fun a => Fin.ext (by match a with | ⟨0, _⟩ => rfl | ⟨1, _⟩ => rfl | ⟨2, _⟩ => rfl)
  rw [e, exp_v19]

/-- The quotient at (n, t, s): the specification's softmax of row (n, t) of the stage's entries, at s. -/
theorem soft_v23 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v23 (F := Ideal) x0 x1 x2 x3 x4 (ix3 n t s) = Cert.Attention.soft (fun s' => val_main_v12 (F := Ideal) x0 x1 x2 x3 x4 (ix3 n t s')) s := by
  rw [val_main_v23_apply, val_main_v22_apply, val_main_v21_apply]
  have e : idx_main_v21 (idx_main_v22 (ix3 n t s)) = ix2 n t :=
    funext fun a => Fin.ext (by match a with | ⟨0, _⟩ => rfl | ⟨1, _⟩ => rfl)
  rw [e, sum_v20, exp_v19]
  rfl

/-! ## The softmax of the negated scores, stage by stage -/

/-- The row maximum at (n, t): the specification's maximum of row (n, t) of the stage's entries. -/
theorem rowMax_v27 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    val_main_v27 (F := Ideal) x0 x1 x2 x3 x4 (ix2 n t) = Cert.Attention.rowMax (fun s' => val_main_v24 (F := Ideal) x0 x1 x2 x3 x4 (ix3 n t s')) := by
  rw [val_main_v27_apply, val_main_v26_apply, val_main_cst_5_apply]
  unfold val_main_v25 val_main_cst_4
  rw [hostReduce_max_last]
  rfl

/-- The exponential at (n, t, s): e to the entry less its row's maximum. -/
theorem exp_v31 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v31 (F := Ideal) x0 x1 x2 x3 x4 (ix3 n t s)
      = Ideal.exp (val_main_v24 (F := Ideal) x0 x1 x2 x3 x4 (ix3 n t s) - Cert.Attention.rowMax (fun s' => val_main_v24 (F := Ideal) x0 x1 x2 x3 x4 (ix3 n t s'))) := by
  rw [val_main_v31_apply, val_main_v30_apply, val_main_v29_apply, val_main_v28_apply]
  have e : idx_main_v28 (idx_main_v29 (ix3 n t s)) = ix2 n t :=
    funext fun a => Fin.ext (by match a with | ⟨0, _⟩ => rfl | ⟨1, _⟩ => rfl)
  rw [e, rowMax_v27]
  rfl

/-- The row sum at (n, t): the sum of the row's exponentials (the sum started from zero). -/
theorem sum_v32 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    val_main_v32 (F := Ideal) x0 x1 x2 x3 x4 (ix2 n t)
      = ∑ s : Fin 64, Ideal.exp (val_main_v24 (F := Ideal) x0 x1 x2 x3 x4 (ix3 n t s) - Cert.Attention.rowMax (fun s' => val_main_v24 (F := Ideal) x0 x1 x2 x3 x4 (ix3 n t s'))) := by
  rw [val_main_v32_apply, val_main_cst_6_apply]
  show Ideal.ofBits .f32 0x00000000#32 + _ = _
  rw [Ideal.ofBits_zero_f32, zero_add]
  refine Finset.sum_congr rfl fun k _ => ?_
  have e : idx_main_v32 (ix2 n t) k = ix3 n t k :=
    funext fun a => Fin.ext (by match a with | ⟨0, _⟩ => rfl | ⟨1, _⟩ => rfl | ⟨2, _⟩ => rfl)
  rw [e, exp_v31]

/-- The quotient at (n, t, s): the specification's softmax of row (n, t) of the stage's entries, at s. -/
theorem soft_v35 (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t s : Fin 64) :
    val_main_v35 (F := Ideal) x0 x1 x2 x3 x4 (ix3 n t s) = Cert.Attention.soft (fun s' => val_main_v24 (F := Ideal) x0 x1 x2 x3 x4 (ix3 n t s')) s := by
  rw [val_main_v35_apply, val_main_v34_apply, val_main_v33_apply]
  have e : idx_main_v33 (idx_main_v34 (ix3 n t s)) = ix2 n t :=
    funext fun a => Fin.ext (by match a with | ⟨0, _⟩ => rfl | ⟨1, _⟩ => rfl)
  rw [e, sum_v32, exp_v31]
  rfl

/-! ## The two results -/

/-- Row (n, t) of the reference's scores is the specification's row t of item n's scores. -/
theorem scoreRow_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    (fun s' => val_main_v12 (F := Ideal) x0 x1 x2 x3 x4 (ix3 n t s'))
      = Cert.Attention.score (Cert.Attention.itemOf x0 x1 x4 n) (Cert.Attention.mat x2) (Cert.Attention.mat x3) t :=
  funext fun s' => score_reference x0 x1 x2 x3 x4 n t s'

/-- Row (n, t) of the reference's negated scores is the negated row t of item n's scores. -/
theorem negScoreRow_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) (n : Fin 4096) (t : Fin 64) :
    (fun s' => val_main_v24 (F := Ideal) x0 x1 x2 x3 x4 (ix3 n t s'))
      = fun s' => -Cert.Attention.score (Cert.Attention.itemOf x0 x1 x4 n) (Cert.Attention.mat x2) (Cert.Attention.mat x3) t s' :=
  funext fun s' => by
    rw [val_main_v24_apply, score_reference]
    rfl

/-- The reference's first result is the specification's first array. -/
theorem cau_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) :
    val_main_v37 (F := Ideal) x0 x1 x2 x3 x4 = Cert.Attention.cauAll x0 x1 x2 x3 x4 := by
  funext i
  obtain ⟨n, t, d, rfl⟩ : ∃ (n : Fin 4096) (t : Fin 64) (d : Fin 256), i = ix3 n t d := ⟨i 0, i 1, i 2, eq_ix3 i⟩
  rw [val_main_v37_apply, val_main_v36_apply, item_reference]
  show _ + _ = Cert.Attention.cau (Cert.Attention.itemOf x0 x1 x4 n) (Cert.Attention.mat x2) (Cert.Attention.mat x3) t d
  unfold Cert.Attention.cau
  refine congrArg (· + _) (Finset.sum_congr rfl fun k _ => ?_)
  have el : lidx_main_v36 (ix3 n t d) k = ix3 n t k :=
    funext fun a => Fin.ext (by match a with | ⟨0, _⟩ => rfl | ⟨1, _⟩ => rfl | ⟨2, _⟩ => rfl)
  have er : ridx_main_v36 (ix3 n t d) k = ix3 n k d :=
    funext fun a => Fin.ext (by match a with | ⟨0, _⟩ => rfl | ⟨1, _⟩ => rfl | ⟨2, _⟩ => rfl)
  rw [el, er, soft_v23, item_reference, scoreRow_reference]

/-- The reference's second result is the specification's second array. -/
theorem spu_reference (x0 x1 : (⟨S4096x64x128, .f32⟩ : BufTy).Contents (Elt Ideal)) (x2 x3 : (⟨S256x256, .f32⟩ : BufTy).Contents (Elt Ideal))
    (x4 : (⟨S100x256, .f32⟩ : BufTy).Contents (Elt Ideal)) :
    val_main_v38 (F := Ideal) x0 x1 x2 x3 x4 = Cert.Attention.spuAll x0 x1 x2 x3 x4 := by
  funext i
  obtain ⟨n, t, d, rfl⟩ : ∃ (n : Fin 4096) (t : Fin 64) (d : Fin 256), i = ix3 n t d := ⟨i 0, i 1, i 2, eq_ix3 i⟩
  rw [val_main_v38_apply]
  show _ = Cert.Attention.spu (Cert.Attention.itemOf x0 x1 x4 n) (Cert.Attention.mat x2) (Cert.Attention.mat x3) t d
  unfold Cert.Attention.spu
  refine Finset.sum_congr rfl fun k _ => ?_
  have el : lidx_main_v38 (ix3 n t d) k = ix3 n t k :=
    funext fun a => Fin.ext (by match a with | ⟨0, _⟩ => rfl | ⟨1, _⟩ => rfl | ⟨2, _⟩ => rfl)
  have er : ridx_main_v38 (ix3 n t d) k = ix3 n k d :=
    funext fun a => Fin.ext (by match a with | ⟨0, _⟩ => rfl | ⟨1, _⟩ => rfl | ⟨2, _⟩ => rfl)
  rw [el, er, soft_v35, item_reference, negScoreRow_reference]

end Cert.ReferenceIdeal.ItemValue

end
-- ==== Proof.lean ====
/-
  The kernel and the reference compute the same two arrays on the extended reals.

  Per batch item x (128 real columns, 128 imaginary ones, the positional rows added) both programs form q = x · Qw and
  k = x · Kw, the scores z = q kᵀ scaled, and return softmax(z) · x + x and softmax(−z) · x. The kernel scales by the
  constant 1/8 and negates as 0 − z; the reference divides by √64 and then by 1 and negates. On the extended reals
  these are the same numbers (Proof/Attention.lean: the specification and the scale law), so both programs end at
  the specification's arrays `cauAll` and `spuAll` of the five arguments:

  • the kernel, 32 items at a time over 128 grid points: what each point stores is the specification of its items
    (Proof/KernelScore.lean, Proof/KernelOutputs.lean), the points' blocks tile the results (Proof/Blocks.lean);
  • the reference, on all 4096 items at once (Proof/ReferenceScore.lean, Proof/ReferenceOutputs.lean).

  No step needs the inputs to be finite: the two programs apply the same operations in the same order, and the scale
  law holds at the infinities too. The three frames are the generated ones; the idealization rewrote nothing, so
  `preserves` is trivial.
-/
import proofs.«156792_j35476429865426_1_alg».proof.Defs
import proofs.«156792_j35476429865426_1_alg».proof.Proof.Gen.Kernel
import proofs.«156792_j35476429865426_1_alg».proof.Proof.Gen.Kernel.Frame
import proofs.«156792_j35476429865426_1_alg».proof.Proof.Gen.KernelIdeal
import proofs.«156792_j35476429865426_1_alg».proof.Proof.Gen.KernelIdeal.Frame
import proofs.«156792_j35476429865426_1_alg».proof.Proof.Gen.KernelIdeal.Value
import proofs.«156792_j35476429865426_1_alg».proof.Proof.Gen.ReferenceIdeal
import proofs.«156792_j35476429865426_1_alg».proof.Proof.Gen.ReferenceIdeal.Run
import proofs.«156792_j35476429865426_1_alg».proof.Proof.Gen.ReferenceIdeal.Read
import proofs.«156792_j35476429865426_1_alg».proof.Proof.Gen.Pre_finite_inputs
import proofs.«156792_j35476429865426_1_alg».proof.Proof.Blocks
import proofs.«156792_j35476429865426_1_alg».proof.Proof.ReferenceOutputs
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the arguments they agree on. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v37_eq, Cert.ReferenceIdeal.ItemValue.cau_reference,
      (hagree c).1, (hagree c).2.1, (hagree c).2.2.1, (hagree c).2.2.2.1, (hagree c).2.2.2.2]
  · rw [Cert.ReferenceIdeal.Read.val_main_v38_eq, Cert.ReferenceIdeal.ItemValue.spu_reference,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
